-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x1x640 : Shape := ⟨4, ![16, 64, 1, 640]⟩
abbrev S16x64x1x1 : Shape := ⟨4, ![16, 64, 1, 1]⟩
abbrev S256x1 : Shape := ⟨2, ![256, 1]⟩
abbrev S1x640 : Shape := ⟨2, ![1, 640]⟩
abbrev S_ : Shape := ⟨0, ![]⟩

class Facts : Prop where
  bcast_S_S16x64x1x640 : S_.BroadcastsInDim S16x64x1x640 (![] : Fin 0 → Fin S16x64x1x640.rank)
  reducesTo_S16x64x1x640_S_d0_1_2_3 : S16x64x1x640.ReducesTo [0, 1, 2, 3] S_
  h_S_ : 0 < S_.numel
  bcast_S_S16x64x1x1 : S_.BroadcastsInDim S16x64x1x1 (![] : Fin 0 → Fin S16x64x1x1.rank)
  reducesTo_S16x64x1x1_S_d0_1_2_3 : S16x64x1x1.ReducesTo [0, 1, 2, 3] S_
  bcast_S_S256x1 : S_.BroadcastsInDim S256x1 (![] : Fin 0 → Fin S256x1.rank)
  reducesTo_S256x1_S_d0_1 : S256x1.ReducesTo [0, 1] S_
  bcast_S_S1x640 : S_.BroadcastsInDim S1x640 (![] : Fin 0 → Fin S1x640.rank)
  reducesTo_S1x640_S_d0_1 : S1x640.ReducesTo [0, 1] S_

variable [Facts]

def fn_part1 {F : FTy → Type} [FloatOps F] (main_arg4 : FVec F S256x1 .f32) (main_arg5 : FVec F S256x1 .f32) (main_arg6 : FVec F S1x640 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1x640 .f32 := Host.absf main_arg6
  let main_cst_10 : FVec F S_ .f32 := constant S_ .f32 0x7F800000#32
  let main_v30 : FVec F S1x640 .f32 := broadcastInDim S1x640 ![] bcast_S_S1x640 main_cst_10
  let main_v31 : IVec S1x640 1 := cmpf .olt main_v29 main_v30
  let main_c_11 : IVec S_ 1 := constantI S_ 1 1#1
  let main_v32 : IVec S_ 1 := (fun x v => Host.reduce IntOp.andi x v reducesTo_S1x640_S_d0_1 h_S_) main_v31 main_c_11
  let main_v33 : IVec S_ 1 := andi main_v28 main_v32
  main_v33

def fn {F : FTy → Type} [FloatOps F] (main_arg0 : FVec F S16x64x1x640 .f32) (main_arg1 : FVec F S16x64x1x1 .f32) (main_arg2 : FVec F S16x64x1x1 .f32) (main_arg3 : FVec F S256x1 .f32) (main_arg4 : FVec F S256x1 .f32) (main_arg5 : FVec F S256x1 .f32) (main_arg6 : FVec F S1x640 .f32) : IVec S_ 1 :=
  let main_v0 : FVec F S16x64x1x640 .f32 := Host.absf main_arg0
  let main_cst : FVec F S_ .f32 := constant S_ .f32 0x7F800000#32
  let main_v1 : FVec F S16x64x1x640 .f32 := broadcastInDim S16x64x1x640 ![] bcast_S_S16x64x1x640 main_cst
  let main_v2 : IVec S16x64x1x640 1 := cmpf .olt main_v0 main_v1
  let main_c : IVec S_ 1 := constantI S_ 1 1#1
  let main_v3 : IVec S_ 1 := (fun x v => Host.reduce IntOp.andi x v reducesTo_S16x64x1x640_S_d0_1_2_3 h_S_) main_v2 main_c
  let main_v4 : FVec F S16x64x1x1 .f32 := Host.absf main_arg1
  let main_cst_0 : FVec F S_ .f32 := constant S_ .f32 0x7F800000#32
  let main_v5 : FVec F S16x64x1x1 .f32 := broadcastInDim S16x64x1x1 ![] bcast_S_S16x64x1x1 main_cst_0
  let main_v6 : IVec S16x64x1x1 1 := cmpf .olt main_v4 main_v5
  let main_c_1 : IVec S_ 1 := constantI S_ 1 1#1
  let main_v7 : IVec S_ 1 := (fun x v => Host.reduce IntOp.andi x v reducesTo_S16x64x1x1_S_d0_1_2_3 h_S_) main_v6 main_c_1
  let main_v8 : IVec S_ 1 := andi main_v3 main_v7
  let main_v9 : FVec F S16x64x1x1 .f32 := Host.absf main_arg2
  let main_cst_2 : FVec F S_ .f32 := constant S_ .f32 0x7F800000#32
  let main_v10 : FVec F S16x64x1x1 .f32 := broadcastInDim S16x64x1x1 ![] bcast_S_S16x64x1x1 main_cst_2
  let main_v11 : IVec S16x64x1x1 1 := cmpf .olt main_v9 main_v10
  let main_c_3 : IVec S_ 1 := constantI S_ 1 1#1
  let main_v12 : IVec S_ 1 := (fun x v => Host.reduce IntOp.andi x v reducesTo_S16x64x1x1_S_d0_1_2_3 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_v13 main_v16
-- ==== Kernel.lean ====
abbrev S16x64x1x640 : Shape := ⟨4, ![16, 64, 1, 640]⟩
abbrev S16x64x1x1 : Shape := ⟨4, ![16, 64, 1, 1]⟩
abbrev S256x1 : Shape := ⟨2, ![256, 1]⟩
abbrev S1x640 : Shape := ⟨2, ![1, 640]⟩
abbrev S1024x640 : Shape := ⟨2, ![1024, 640]⟩
abbrev S1024x1 : Shape := ⟨2, ![1024, 1]⟩
abbrev S1x256 : Shape := ⟨2, ![1, 256]⟩
abbrev S1024x256 : Shape := ⟨2, ![1024, 256]⟩
abbrev S32x128 : Shape := ⟨2, ![32, 128]⟩
abbrev S32x1 : Shape := ⟨2, ![32, 1]⟩
abbrev S1x128 : Shape := ⟨2, ![1, 128]⟩
abbrev S32x256 : Shape := ⟨2, ![32, 256]⟩
abbrev S32x256x1 : Shape := ⟨3, ![32, 256, 1]⟩
abbrev S32x1x128 : Shape := ⟨3, ![32, 1, 128]⟩
abbrev S32x256x128 : Shape := ⟨3, ![32, 256, 128]⟩
abbrev S1x256x1 : Shape := ⟨3, ![1, 256, 1]⟩
abbrev S16x64x256 : Shape := ⟨3, ![16, 64, 256]⟩

abbrev nBuf : Space → Nat
  | .hbm => 15
  | .vmem => 14
  | .smem => 0
  | _ => 0

abbrev bufTy : (tb : Table) → Fin (tcTables nBuf tb) → BufTy
  | .hbm, ⟨0, _⟩ => ⟨S16x64x1x640, .f32⟩
  | .hbm, ⟨1, _⟩ => ⟨S16x64x1x1, .f32⟩
  | .hbm, ⟨2, _⟩ => ⟨S16x64x1x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S1x640, .f32⟩
  | .hbm, ⟨7, _⟩ => ⟨S1024x640, .f32⟩
  | .hbm, ⟨8, _⟩ => ⟨S1024x1, .f32⟩
  | .hbm, ⟨9, _⟩ => ⟨S1024x1, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1024x256, .f32⟩
  | .hbm, ⟨14, _⟩ => ⟨S16x64x256, .f32⟩
  | .local _ .vmem, ⟨0, _⟩ => ⟨S32x128, .f32⟩
  | .local _ .vmem, ⟨1, _⟩ => ⟨S32x128, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | _, _ => ⟨S16x64x1x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v48 : BitVec 1 := Scalar.cmpi .eq arg1 c4_i32
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S16x64x1x640_S1024x640 : S16x64x1x640.ShapeCasts S1024x640
  shapeCasts_S16x64x1x1_S1024x1 : S16x64x1x1.ShapeCasts S1024x1
  shapeCasts_S256x1_S1x256 : S256x1.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x128_S1x128_0_0 : ∀ a, (![0, 0] : Fin 2 → Nat) a + S1x128.size a ≤ S1x128.size a
  h_S1x128 : 0 < S1x128.numel
  broadcasts_S1x128_S32x128 : S1x128.Broadcasts S32x128
  broadcasts_S32x1_S32x128 : S32x1.Broadcasts S32x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  broadcasts_S32x1_S32x256 : S32x1.Broadcasts S32x256
  shapeCasts_S32x256_S32x256x1 : S32x256.ShapeCasts S32x256x1
  shapeCasts_S32x128_S32x1x128 : S32x128.ShapeCasts S32x1x128
  broadcasts_S32x256x1_S32x256x128 : S32x256x1.Broadcasts S32x256x128
  broadcasts_S32x1x128_S32x256x128 : S32x1x128.Broadcasts S32x256x128
  shapeCasts_S1x256_S1x256x1 : S1x256.ShapeCasts S1x256x1
  broadcasts_S1x256x1_S32x256x128 : S1x256x1.Broadcasts S32x256x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x256x128_S32x256 : S32x256x128.Reduces [2] S32x256
  shapeCasts_S1024x256_S16x64x256 : S1024x256.ShapeCasts S16x64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S1024x640.size a
  hwx0_0 : ∀ i : grid0.Coords, EltTy.bits .f32 = 32 ∨ (Rect.block (s := S1024x640) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S1024x1.size a
  hwx0_1 : ∀ i : grid0.Coords, EltTy.bits .f32 = 32 ∨ (Rect.block (s := S1024x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S1024x1.size a
  hwx0_2 : ∀ i : grid0.Coords, EltTy.bits .f32 = 32 ∨ (Rect.block (s := S1024x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x640.size a
  hwx0_3 : ∀ i : grid0.Coords, EltTy.bits .f32 = 32 ∨ (Rect.block (s := S1x640) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x256.size a ≤ S1024x256.size a
  hwx0_7 : ∀ i : grid0.Coords, EltTy.bits .f32 = 32 ∨ (Rect.block (s := S1024x256) S32x256.size (cc0_transform_7 i) (hinb0_7 i)).WholeWords (EltTy.packing .f32)

variable [Facts₀]

abbrev win0_0 : Pipeline.Window sig grid0 :=
  Pipeline.Window.ofSpec (Memref.whole main_v0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S32x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x64x1x640 : Shape := ⟨4, ![16, 64, 1, 640]⟩
abbrev S16x64x1x1 : Shape := ⟨4, ![16, 64, 1, 1]⟩
abbrev S256x1 : Shape := ⟨2, ![256, 1]⟩
abbrev S1x640 : Shape := ⟨2, ![1, 640]⟩
abbrev S_ : Shape := ⟨0, ![]⟩
abbrev S1x1x1x640 : Shape := ⟨4, ![1, 1, 1, 640]⟩
abbrev S1x1x256x1 : Shape := ⟨4, ![1, 1, 256, 1]⟩
abbrev S16x64x256x1 : Shape := ⟨4, ![16, 64, 256, 1]⟩
abbrev S16x64x256x640 : Shape := ⟨4, ![16, 64, 256, 640]⟩
abbrev S16x64x256 : Shape := ⟨3, ![16, 64, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x64x1x640, .f32⟩
  | .hbm, ⟨1, _⟩ => ⟨S16x64x1x1, .f32⟩
  | .hbm, ⟨2, _⟩ => ⟨S16x64x1x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S1x640, .f32⟩
  | .hbm, ⟨7, _⟩ => ⟨S_, .f32⟩
  | .hbm, ⟨8, _⟩ => ⟨S16x64x1x1, .f32⟩
  | .hbm, ⟨9, _⟩ => ⟨S16x64x1x1, .f32⟩
  | .hbm, ⟨10, _⟩ => ⟨S_, .f32⟩
  | .hbm, ⟨11, _⟩ => ⟨S16x64x1x1, .f32⟩
  | .hbm, ⟨12, _⟩ => ⟨S16x64x1x1, .f32⟩
  | .hbm, ⟨13, _⟩ => ⟨S16x64x1x1, .f32⟩
  | .hbm, ⟨14, _⟩ => ⟨S1x1x1x640, .f32⟩
  | .hbm, ⟨15, _⟩ => ⟨S16x64x1x640, .f32⟩
  | .hbm, ⟨16, _⟩ => ⟨S16x64x1x640, .f32⟩
  | .hbm, ⟨17, _⟩ => ⟨S16x64x1x640, .f32⟩
  | .hbm, ⟨18, _⟩ => ⟨S1x1x256x1, .f32⟩
  | .hbm, ⟨19, _⟩ => ⟨S16x64x256x1, .f32⟩
  | .hbm, ⟨20, _⟩ => ⟨S16x64x256x1, .f32⟩
  | .hbm, ⟨21, _⟩ => ⟨S16x64x256x1, .f32⟩
  | .hbm, ⟨22, _⟩ => ⟨S16x64x256x640, .f32⟩
  | .hbm, ⟨23, _⟩ => ⟨S16x64x256x640, .f32⟩
  | .hbm, ⟨24, _⟩ => ⟨S16x64x256x640, .f32⟩
  | .hbm, ⟨25, _⟩ => ⟨S1x1x256x1, .f32⟩
  | .hbm, ⟨26, _⟩ => ⟨S16x64x256x640, .f32⟩
  | .hbm, ⟨27, _⟩ => ⟨S16x64x256x640, .f32⟩
  | .hbm, ⟨28, _⟩ => ⟨S16x64x256x640, .f32⟩
  | .hbm, ⟨29, _⟩ => ⟨S1x1x256x1, .f32⟩
  | .hbm, ⟨30, _⟩ => ⟨S16x64x256x640, .f32⟩
  | .hbm, ⟨31, _⟩ => ⟨S16x64x256x640, .f32⟩
  | .hbm, ⟨32, _⟩ => ⟨S16x64x256x640, .f32⟩
  | .hbm, ⟨33, _⟩ => ⟨S16x64x256x640, .f32⟩
  | .hbm, ⟨34, _⟩ => ⟨S_, .f32⟩
  | .hbm, ⟨35, _⟩ => ⟨S16x64x256, .f32⟩
  | _, _ => ⟨S16x64x1x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S16x64x1x1 : S_.BroadcastsInDim S16x64x1x1 (![] : Fin 0 → Fin S16x64x1x1.rank)
  bcast_S1x640_S1x1x1x640_2_3 : S1x640.BroadcastsInDim S1x1x1x640 (![2, 3] : Fin 2 → Fin S1x1x1x640.rank)
  bcast_S1x1x1x640_S16x64x1x640_0_1_2_3 : S1x1x1x640.BroadcastsInDim S16x64x1x640 (![0, 1, 2, 3] : Fin 4 → Fin S16x64x1x640.rank)
  bcast_S16x64x1x1_S16x64x1x640_0_1_2_3 : S16x64x1x1.BroadcastsInDim S16x64x1x640 (![0, 1, 2, 3] : Fin 4 → Fin S16x64x1x640.rank)
  bcast_S256x1_S1x1x256x1_2_3 : S256x1.BroadcastsInDim S1x1x256x1 (![2, 3] : Fin 2 → Fin S1x1x256x1.rank)
  bcast_S1x1x256x1_S16x64x256x1_0_1_2_3 : S1x1x256x1.BroadcastsInDim S16x64x256x1 (![0, 1, 2, 3] : Fin 4 → Fin S16x64x256x1.rank)
  bcast_S16x64x1x1_S16x64x256x1_0_1_2_3 : S16x64x1x1.BroadcastsInDim S16x64x256x1 (![0, 1, 2, 3] : Fin 4 → Fin S16x64x256x1.rank)
  bcast_S16x64x256x1_S16x64x256x640_0_1_2_3 : S16x64x256x1.BroadcastsInDim S16x64x256x640 (![0, 1, 2, 3] : Fin 4 → Fin S16x64x256x640.rank)
  bcast_S16x64x1x640_S16x64x256x640_0_1_2_3 : S16x64x1x640.BroadcastsInDim S16x64x256x640 (![0, 1, 2, 3] : Fin 4 → Fin S16x64x256x640.rank)
  bcast_S1x1x256x1_S16x64x256x640_0_1_2_3 : S1x1x256x1.BroadcastsInDim S16x64x256x640 (![0, 1, 2, 3] : Fin 4 → Fin S16x64x256x640.rank)
  reducesTo_S16x64x256x640_S16x64x256_d3 : S16x64x256x640.ReducesTo [3] S16x64x256
  h_S_ : 0 < S_.numel

variable [Facts₀]

class Facts : Prop extends Facts₀ where

variable [Facts]
-- ==== Proof.Spec.lean ====
/-
  The mathematics both programs compute, stated once and free of either program.

  For a row (s, b), a channel d and a sample time t the summand is
      a[d] · sin( (w[d] · exp(nlf[s,b] · σ + μ)) · (k[t] − τ[s,b]) + φ[d] ) · x[s,b,t]
  with σ, μ the two float literals both texts carry, and the result at (s, b, d) is the sum of the summands over the
  640 sample times. Every operation is the extended reals' own; no law beyond those of a commutative monoid under
  addition is used, so no finiteness of the inputs is needed.

  The kernel walks the 640 sample times in five tiles of 128, adding each tile's sum to a running total; the reference
  sums all 640 at once. `sum_tiles` is the one law that joins them: a sum over 640 consecutive positions is the sum
  over five tiles of the sums over each tile's 128 positions.
-/
import Idealize.ShloMosaic.PureOps.Ideal
import Idealize.ShloMosaic.Lib.ValueIdx
import Mathlib.Algebra.BigOperators.Fin
import Mathlib.Logic.Equiv.Fin.Basic

noncomputable section

namespace Cert.SineBasis

open Idealize.ShloMosaic Idealize.ShloMosaic.ValueIdx

/-- One summand: amplitude times the sine of (angular frequency times shifted time plus phase), times the sample. -/
def term (xv nlfv tauv av phiv wv kv : EReal) : EReal :=
  (av * Ideal.sin ((wv * Ideal.exp (nlfv * Ideal.ofBits .f32 0x3EBF1F9B#32 + Ideal.ofBits .f32 0x40A0D96A#32)) * (kv - tauv) + phiv)) * xv

/-- Sample time `j` of tile `k` (tile `k` holds positions `128 k … 128 k + 127`). -/
def tileIdx (k : ℕ) (j : Fin 128) : Fin 640 := ⟨(128 * k + j.val) % 640, Nat.mod_lt _ (by decide)⟩

/-- Row `r` of row tile `i` (row tile `i` holds rows `32 i … 32 i + 31`). -/
def rowIdx (i : ℕ) (r : Fin 32) : Fin 1024 := ⟨(32 * i + r.val) % 1024, Nat.mod_lt _ (by decide)⟩

/-- The result over the seven argument arrays: at (s, b, d) the sum of the summands over the 640 sample times. -/
def G (x : (⟨4, ![16, 64, 1, 640]⟩ : Shape).Idx → EReal) (nlf tau : (⟨4, ![16, 64, 1, 1]⟩ : Shape).Idx → EReal)
    (a phi w : (⟨2, ![256, 1]⟩ : Shape).Idx → EReal) (kT : (⟨2, ![1, 640]⟩ : Shape).Idx → EReal) :
    (⟨3, ![16, 64, 256]⟩ : Shape).Idx → EReal :=
  fun i => ∑ t : Fin 640, term (x (ix4 (i 0) (i 1) 0 t)) (nlf (ix4 (i 0) (i 1) 0 0)) (tau (ix4 (i 0) (i 1) 0 0))
    (a (ix2 (i 2) 0)) (phi (ix2 (i 2) 0)) (w (ix2 (i 2) 0)) (kT (ix2 0 t))

/-- Five tiles of 128 positions are the 640 positions: the sum over the tiles of each tile's sum is the whole sum. -/
theorem sum_tiles (f : Fin 640 → EReal) :
    ∑ k ∈ Finset.range 5, ∑ j : Fin 128, f (tileIdx k j) = ∑ t : Fin 640, f t := by
  rw [Finset.sum_range, ← Fintype.sum_prod_type']
  refine Fintype.sum_equiv (finProdFinEquiv (m := 5) (n := 128)) _ _ (fun p => congrArg f (Fin.ext ?_))
  obtain ⟨k, j⟩ := p
  have hk := k.isLt
  have hj := j.isLt
  simp only [tileIdx, finProdFinEquiv_apply_val]
  omega

end Cert.SineBasis

end
-- ==== Proof.RefValue.lean ====
/-
  The reference at the ideal instance: its result array, read index by index, is the sum of the summands over the
  640 sample times (the specification's `G` of the argument arrays).

  The reference builds its result from broadcasts, pointwise operations and one sum over the last axis. Reading the
  result at (s, b, d), the sum's k-th summand is the pointwise expression read at (s, b, d, k); every broadcast there
  reads its operand at the index that keeps the operand's own axes and puts 0 on the axes of size one. The seven
  index equations below say which entry of each argument array that is; with them the summand is the
  specification's `term` of those entries, and the sum's initial value, the float zero, is the extended real 0.
-/
import proofs.«150227_j76433238000020_1_alg».proof.Proof.Gen.ReferenceIdeal.Run
import proofs.«150227_j76433238000020_1_alg».proof.Proof.Gen.ReferenceIdeal.Read
import proofs.«150227_j76433238000020_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The sample array x is read at (s, b, 0, k). -/
theorem idx_x (i : S16x64x256.Idx) (k : Fin 640) :
    idx_main_v23 (idx_main_v25 i k) = (ix4 (i 0) (i 1) 0 k : S16x64x1x640.Idx) :=
  funext fun a => Fin.ext (by match a with | ⟨0, _⟩ => rfl | ⟨1, _⟩ => rfl | ⟨2, _⟩ => rfl | ⟨3, _⟩ => rfl)

/-- The amplitude column a is read at (d, 0). -/
theorem idx_a (i : S16x64x256.Idx) (k : Fin 640) :
    idx_main_v20 (idx_main_v21 (idx_main_v25 i k)) = (ix2 (i 2) 0 : S256x1.Idx) :=
  funext fun a => Fin.ext (by match a with | ⟨0, _⟩ => rfl | ⟨1, _⟩ => rfl)

/-- The phase column φ is read at (d, 0). -/
theorem idx_phi (i : S16x64x256.Idx) (k : Fin 640) :
    idx_main_v16 (idx_main_v17 (idx_main_v25 i k)) = (ix2 (i 2) 0 : S256x1.Idx) :=
  funext fun a => Fin.ext (by match a with | ⟨0, _⟩ => rfl | ⟨1, _⟩ => rfl)

/-- The angular-frequency column w is read at (d, 0). -/
theorem idx_w (i : S16x64x256.Idx) (k : Fin 640) :
    idx_main_v9 (idx_main_v10 (idx_main_v13 (idx_main_v25 i k))) = (ix2 (i 2) 0 : S256x1.Idx) :=
  funext fun a => Fin.ext (by match a with | ⟨0, _⟩ => rfl | ⟨1, _⟩ => rfl)

/-- The normalised log-frequency nlf is read at (s, b, 0, 0). -/
theorem idx_nlf (i : S16x64x256.Idx) (k : Fin 640) :
    idx_main_v11 (idx_main_v13 (idx_main_v25 i k)) = (ix4 (i 0) (i 1) 0 0 : S16x64x1x1.Idx) :=
  funext fun a => Fin.ext (by match a with | ⟨0, _⟩ => rfl | ⟨1, _⟩ => rfl | ⟨2, _⟩ => rfl | ⟨3, _⟩ => rfl)

/-- The sample-time row k_T is read at (0, k). -/
theorem idx_kT (i : S16x64x256.Idx) (k : Fin 640) :
    idx_main_v5 (idx_main_v6 (idx_main_v14 (idx_main_v25 i k))) = (ix2 0 k : S1x640.Idx) :=
  funext fun a => Fin.ext (by match a with | ⟨0, _⟩ => rfl | ⟨1, _⟩ => rfl)

/-- The time shift τ is read at (s, b, 0, 0). -/
theorem idx_tau (i : S16x64x256.Idx) (k : Fin 640) :
    idx_main_v7 (idx_main_v14 (idx_main_v25 i k)) = (ix4 (i 0) (i 1) 0 0 : S16x64x1x1.Idx) :=
  funext fun a => Fin.ext (by match a with | ⟨0, _⟩ => rfl | ⟨1, _⟩ => rfl | ⟨2, _⟩ => rfl | ⟨3, _⟩ => rfl)

/-- The reference's result is the specification's sum: at (s, b, d) it is 0 plus the sum over the 640 sample times of
    (a[d] · sin((w[d] · exp(nlf[s,b] · σ + μ)) · (k_T[k] − τ[s,b]) + φ[d])) · x[s,b,k], the operands in the order the
    specification's summand has them. -/
theorem ref_eq (x0 : (⟨S16x64x1x640, .f32⟩ : BufTy).Contents (Elt Ideal)) (x1 x2 : (⟨S16x64x1x1, .f32⟩ : BufTy).Contents (Elt Ideal)) (x3 x4 x5 : (⟨S256x1, .f32⟩ : BufTy).Contents (Elt Ideal)) (x6 : (⟨S1x640, .f32⟩ : BufTy).Contents (Elt Ideal)) :
    Cert.ReferenceIdeal.Read.val_main_v25 (F := Ideal) x0 x1 x2 x3 x4 x5 x6 = Cert.SineBasis.G x0 x1 x2 x3 x4 x5 x6 := by
  funext i
  rw [val_main_v25_apply, val_main_cst_1_apply, Ideal.ofBits_def, Ideal.ofBits_zero_f32, zero_add]
  unfold Cert.SineBasis.G
  refine Finset.sum_congr rfl fun k _ => ?_
  -- the k-th summand, read through the pointwise operations and the broadcasts down to the argument arrays
  rw [val_main_v24_apply, val_main_v22_apply, val_main_v23_apply, val_main_v21_apply, val_main_v20_apply,
    val_main_v19_apply, val_main_v18_apply, val_main_v15_apply, val_main_v17_apply, val_main_v16_apply,
    val_main_v13_apply, val_main_v14_apply, val_main_v12_apply, val_main_v10_apply, val_main_v11_apply,
    val_main_v9_apply, val_main_v8_apply, val_main_v6_apply, val_main_v7_apply, val_main_v5_apply,
    val_main_v4_apply, val_main_v3_apply, val_main_v1_apply, val_main_v0_apply, val_main_v2_apply,
    val_main_cst_apply, val_main_cst_0_apply]
  -- each argument array's entry
  rw [idx_x, idx_a, idx_phi, idx_w, idx_nlf, idx_kT, idx_tau]
  -- the ideal instance's operations are the extended reals' own
  simp only [Ideal.mulf_def, Ideal.addf_def, Ideal.subf_def, Ideal.ofBits_def, Ideal.hostUnary_exp_def,
    Ideal.hostUnary_sin_def]
  rfl

end Cert.ReferenceIdeal.RefValue

end
-- ==== Proof.Pieces.lean ====
/-
  What one grid point leaves behind, case by case, as the body's own arithmetic.

  The body keeps a running total in a scratch block of 32 rows by 256 channels. At a row tile's first time tile it
  clears the block and adds the tile's partial sums to the cleared block; at every other time tile it adds the partial
  sums to what the point before left; at the last time tile it also copies the new total into the output block.
  `step acc …` is that one addition: the running total `acc` plus the partial sums of the point's seven input blocks.
-/
import proofs.«150227_j76433238000020_1_alg».proof.Proof.Gen.KernelIdeal.Frame
import Idealize.ShloMosaic.Lib.Pipeline.Value
import Idealize.ShloMosaic.Lib.Tactic

set_option maxRecDepth 16384

noncomputable section

namespace Cert.KernelIdeal.Accum

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- One point's update of the running total: `acc` plus, at (row, channel), the sum over the tile's 128 sample times
    of the summands built from the point's blocks (samples `x0`, log-frequencies `x1`, delays `x2`, sample times `x3`,
    amplitudes `x4`, phases `x5`, harmonic factors `x6`). -/
abbrev step (acc : Vec F S32x256 .f32) (x0 : Vec F S32x128 .f32) (x1 : Vec F S32x1 .f32) (x2 : Vec F S32x1 .f32) (x3 : Vec F S1x128 .f32) (x4 : Vec F S1x256 .f32) (x5 : Vec F S1x256 .f32) (x6 : Vec F S1x256 .f32) : Vec F S32x256 .f32 :=
  k0_pay1 (k0_pay3 x1 x3 x2 x6 x5 x4) (k0_pay4 x0) acc

/-- The cleared block: every entry the float zero. -/
abbrev cleared : Vec F S32x256 .f32 := k0_pay2

/-- First time tile of a row tile: the scratch ends at the cleared block plus the tile's partial sums. -/
theorem scratch_first (c : Dev nD) (i : grid0.Coords) (arg2 : Memref sig .tc .vmem S32x128 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x256 .f32) (harg9 : arg9.IsWhole) (arg10 : Memref sig .tc .vmem S32x256 .f32) (harg10 : arg10.IsWhole) (hc0 : cond0_0 i) (hc1 : ¬cond0_1 i) (x0 : Vec F S32x128 .f32) (x1 : Vec F S32x1 .f32) (x2 : Vec F S32x1 .f32) (x3 : Vec F S1x128 .f32) (x4 : Vec F S1x256 .f32) (x5 : Vec F S1x256 .f32) (x6 : Vec F S1x256 .f32) :
    sout0_A_0 c i arg2 harg2 arg3 harg3 arg4 harg4 arg5 harg5 arg6 harg6 arg7 harg7 arg8 harg8 arg9 harg9 arg10 harg10 hc0 hc1 x0 x1 x2 x3 x4 x5 x6 = step cleared x0 x1 x2 x3 x4 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S32x256) hz, View.readCov_unit_zero (S := S32x256) _ hz]
  simp only [View.readAt_eq_ld, harg2.read_unread, harg3.read_unread, harg4.read_unread, harg5.read_unread, harg6.read_unread, harg7.read_unread, harg8.read_unread, harg10.read_unread, View.ld_unit_zero (S := S32x128) hz, View.ld_unit_zero (S := S32x1) hz, View.ld_unit_zero (S := S1x128) hz, View.ld_unit_zero (S := S1x256) hz, View.ld_unit_zero (S := S32x256) hz]

/-- A middle time tile: the scratch ends at what the point before left plus the tile's partial sums. -/
theorem scratch_middle (c : Dev nD) (i : grid0.Coords) (arg2 : Memref sig .tc .vmem S32x128 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x256 .f32) (harg9 : arg9.IsWhole) (arg10 : Memref sig .tc .vmem S32x256 .f32) (harg10 : arg10.IsWhole) (hc0 : ¬cond0_0 i) (hc1 : ¬cond0_1 i) (x0 : Vec F S32x128 .f32) (x1 : Vec F S32x1 .f32) (x2 : Vec F S32x1 .f32) (x3 : Vec F S1x128 .f32) (x4 : Vec F S1x256 .f32) (x5 : Vec F S1x256 .f32) (x6 : Vec F S1x256 .f32) (xs0 : Vec F S32x256 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step xs0 x0 x1 x2 x3 x4 x5 x6 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S32x256) hz]
  simp only [View.readAt_eq_ld, harg2.read_unread, harg3.read_unread, harg4.read_unread, harg5.read_unread, harg6.read_unread, harg7.read_unread, harg8.read_unread, harg10.read_unread, View.ld_unit_zero (S := S32x128) hz, View.ld_unit_zero (S := S32x1) hz, View.ld_unit_zero (S := S1x128) hz, View.ld_unit_zero (S := S1x256) hz, View.ld_unit_zero (S := S32x256) hz]

/-- The last time tile: the scratch ends at what the point before left plus the tile's partial sums, -/
theorem scratch_last (c : Dev nD) (i : grid0.Coords) (arg2 : Memref sig .tc .vmem S32x128 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x256 .f32) (harg9 : arg9.IsWhole) (arg10 : Memref sig .tc .vmem S32x256 .f32) (harg10 : arg10.IsWhole) (hc0 : ¬cond0_0 i) (hc1 : cond0_1 i) (x0 : Vec F S32x128 .f32) (x1 : Vec F S32x1 .f32) (x2 : Vec F S32x1 .f32) (x3 : Vec F S1x128 .f32) (x4 : Vec F S1x256 .f32) (x5 : Vec F S1x256 .f32) (x6 : Vec F S1x256 .f32) (xs0 : Vec F S32x256 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step xs0 x0 x1 x2 x3 x4 x5 x6 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S32x256) hz]
  simp only [View.readAt_eq_ld, harg2.read_unread, harg3.read_unread, harg4.read_unread, harg5.read_unread, harg6.read_unread, harg7.read_unread, harg8.read_unread, harg10.read_unread, View.ld_unit_zero (S := S32x128) hz, View.ld_unit_zero (S := S32x1) hz, View.ld_unit_zero (S := S1x128) hz, View.ld_unit_zero (S := S1x256) hz, View.ld_unit_zero (S := S32x256) hz]

/-- and the output block is a copy of that total. -/
theorem output_last (c : Dev nD) (i : grid0.Coords) (arg2 : Memref sig .tc .vmem S32x128 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x256 .f32) (harg9 : arg9.IsWhole) (arg10 : Memref sig .tc .vmem S32x256 .f32) (harg10 : arg10.IsWhole) (hc0 : ¬cond0_0 i) (hc1 : cond0_1 i) (x0 : Vec F S32x128 .f32) (x1 : Vec F S32x1 .f32) (x2 : Vec F S32x1 .f32) (x3 : Vec F S1x128 .f32) (x4 : Vec F S1x256 .f32) (x5 : Vec F S1x256 .f32) (x6 : Vec F S1x256 .f32) (xs0 : Vec F S32x256 .f32) :
    out0_C_7 c i arg2 harg2 arg3 harg3 arg4 harg4 arg5 harg5 arg6 harg6 arg7 harg7 arg8 harg8 arg9 harg9 arg10 harg10 hc0 hc1 x0 x1 x2 x3 x4 x5 x6 xs0 = step xs0 x0 x1 x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S32x256) hz, View.readCov_unit_zero (S := S32x256) _ hz]
  simp only [View.readAt_eq_ld, harg2.read_unread, harg3.read_unread, harg4.read_unread, harg5.read_unread, harg6.read_unread, harg7.read_unread, harg8.read_unread, harg10.read_unread, View.ld_unit_zero (S := S32x128) hz, View.ld_unit_zero (S := S32x1) hz, View.ld_unit_zero (S := S1x128) hz, View.ld_unit_zero (S := S1x256) hz, View.ld_unit_zero (S := S32x256) hz]

end Cert.KernelIdeal.Accum

end
-- ==== Proof.Payload.lean ====
/-
  One point's update of the running total, read at a (row, channel) at the ideal instance.

  The body builds, for local row r, channel d and local time j,
      a[d] · sin( (w[d] · exp(nlf[r] · σ + μ)) · (k[j] − τ[r]) + φ[d] ) · x[r, j]
  by broadcasting the row quantities along channels and times, the channel quantities along rows and times and the
  time quantities along rows and channels; sums it over the 128 local times; and adds the sum to the running total.
  Read at (r, d) this is the running total's entry plus the sum over j of the specification's summand.
-/
import proofs.«150227_j76433238000020_1_alg».proof.Proof.Pieces
import proofs.«150227_j76433238000020_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Accum

open Idealize.ShloMosaic Idealize.ShloMosaic.TcCoe Idealize.ShloMosaic.ValueIdx
open Cert.KernelIdeal Cert.KernelIdeal.Gen

variable {α : Type}

/-! ## The broadcasts and unit-axis casts of this body, read at an index -/

/-- A row of 128 times repeated over the 32 rows. -/
theorem bcast_times_rows (v : S1x128.Idx → α) (h : S1x128.Broadcasts S32x128) (r : Fin 32) (j : Fin 128) :
    broadcastTo S32x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A column of 32 row values repeated over the 128 times. -/
theorem bcast_rows_times (v : S32x1.Idx → α) (h : S32x1.Broadcasts S32x128) (r : Fin 32) (j : Fin 128) :
    broadcastTo S32x128 v h (ix2 r j) = v (ix2 r 0) :=
  broadcastTo_apply v h (ix2 r j) (ix2 r 0) (fun a => match a with
    | ⟨0, _⟩ => by show r.val = if (32 : Nat) = 1 then 0 else r.val; rw [if_neg (by decide)]
    | ⟨1, _⟩ => by show 0 = if (1 : Nat) = 1 then 0 else j.val; rw [if_pos rfl])

/-- A row of 256 channel values repeated over the 32 rows. -/
theorem bcast_chans_rows (v : S1x256.Idx → α) (h : S1x256.Broadcasts S32x256) (r : Fin 32) (d : Fin 256) :
    broadcastTo S32x256 v h (ix2 r d) = v (ix2 0 d) :=
  broadcastTo_apply v h (ix2 r d) (ix2 0 d) (fun a => match a with
    | ⟨0, _⟩ => by show 0 = if (1 : Nat) = 1 then 0 else r.val; rw [if_pos rfl]
    | ⟨1, _⟩ => by show d.val = if (256 : Nat) = 1 then 0 else d.val; rw [if_neg (by decide)])

/-- A column of 32 row values repeated over the 256 channels. -/
theorem bcast_rows_chans (v : S32x1.Idx → α) (h : S32x1.Broadcasts S32x256) (r : Fin 32) (d : Fin 256) :
    broadcastTo S32x256 v h (ix2 r d) = v (ix2 r 0) :=
  broadcastTo_apply v h (ix2 r d) (ix2 r 0) (fun a => match a with
    | ⟨0, _⟩ => by show r.val = if (32 : Nat) = 1 then 0 else r.val; rw [if_neg (by decide)]
    | ⟨1, _⟩ => by show 0 = if (1 : Nat) = 1 then 0 else d.val; rw [if_pos rfl])

/-- (row, channel) values repeated over the 128 times. -/
theorem bcast_rc_times (v : S32x256x1.Idx → α) (h : S32x256x1.Broadcasts S32x256x128) (r : Fin 32) (d : Fin 256) (j : Fin 128) :
    broadcastTo S32x256x128 v h (ix3 r d j) = v (ix3 r d 0) :=
  broadcastTo_apply v h (ix3 r d j) (ix3 r d 0) (fun a => match a with
    | ⟨0, _⟩ => by show r.val = if (32 : Nat) = 1 then 0 else r.val; rw [if_neg (by decide)]
    | ⟨1, _⟩ => by show d.val = if (256 : Nat) = 1 then 0 else d.val; rw [if_neg (by decide)]
    | ⟨2, _⟩ => by show 0 = if (1 : Nat) = 1 then 0 else j.val; rw [if_pos rfl])

/-- (row, time) values repeated over the 256 channels. -/
theorem bcast_rt_chans (v : S32x1x128.Idx → α) (h : S32x1x128.Broadcasts S32x256x128) (r : Fin 32) (d : Fin 256) (j : Fin 128) :
    broadcastTo S32x256x128 v h (ix3 r d j) = v (ix3 r 0 j) :=
  broadcastTo_apply v h (ix3 r d j) (ix3 r 0 j) (fun a => match a with
    | ⟨0, _⟩ => by show r.val = if (32 : Nat) = 1 then 0 else r.val; rw [if_neg (by decide)]
    | ⟨1, _⟩ => by show 0 = if (1 : Nat) = 1 then 0 else d.val; rw [if_pos rfl]
    | ⟨2, _⟩ => by show j.val = if (128 : Nat) = 1 then 0 else j.val; rw [if_neg (by decide)])

/-- Channel values repeated over the 32 rows and the 128 times. -/
theorem bcast_chan_rt (v : S1x256x1.Idx → α) (h : S1x256x1.Broadcasts S32x256x128) (r : Fin 32) (d : Fin 256) (j : Fin 128) :
    broadcastTo S32x256x128 v h (ix3 r d j) = v (ix3 0 d 0) :=
  broadcastTo_apply v h (ix3 r d j) (ix3 0 d 0) (fun a => match a with
    | ⟨0, _⟩ => by show 0 = if (1 : Nat) = 1 then 0 else r.val; rw [if_pos rfl]
    | ⟨1, _⟩ => by show d.val = if (256 : Nat) = 1 then 0 else d.val; rw [if_neg (by decide)]
    | ⟨2, _⟩ => by show 0 = if (1 : Nat) = 1 then 0 else j.val; rw [if_pos rfl])

/-- A trailing unit axis added to a (row, channel) array. -/
theorem cast_rc_unit (v : S32x256.Idx → α) (h : S32x256.ShapeCasts S32x256x1) (r : Fin 32) (d : Fin 256) :
    shapeCast S32x256x1 v h (ix3 r d 0) = v (ix2 r d) :=
  shapeCast_apply v h (ix3 r d 0) (ix2 r d) (by
    rw [Shape.rowMajor_val_two, Shape.rowMajor_val_three]
    show r.val * 256 + d.val = (r.val * 256 + d.val) * 1 + 0
    omega)

/-- A middle unit axis added to a (row, time) array. -/
theorem cast_rt_unit (v : S32x128.Idx → α) (h : S32x128.ShapeCasts S32x1x128) (r : Fin 32) (j : Fin 128) :
    shapeCast S32x1x128 v h (ix3 r 0 j) = v (ix2 r j) :=
  shapeCast_apply v h (ix3 r 0 j) (ix2 r j) (by
    rw [Shape.rowMajor_val_two, Shape.rowMajor_val_three]
    show r.val * 128 + j.val = (r.val * 1 + 0) * 128 + j.val
    omega)

/-- A trailing unit axis added to a row of channel values. -/
theorem cast_chan_unit (v : S1x256.Idx → α) (h : S1x256.ShapeCasts S1x256x1) (d : Fin 256) :
    shapeCast S1x256x1 v h (ix3 0 d 0) = v (ix2 0 d) :=
  shapeCast_apply v h (ix3 0 d 0) (ix2 0 d) (by
    rw [Shape.rowMajor_val_two, Shape.rowMajor_val_three]
    show 0 * 256 + d.val = (0 * 256 + d.val) * 1 + 0
    omega)

/-- The index the time reduction reads at (row, channel) and local time j. -/
theorem lift_time (r : Fin 32) (d : Fin 256) (j : Fin (S32x256x128.size 2)) :
    reduces_S32x256x128_S32x256.lift (ix2 r d) j = ix3 r d (⟨j.val, j.isLt⟩ : Fin 128) := by
  funext a
  apply Fin.ext
  show reduces_S32x256x128_S32x256.liftVal (ix2 r d) j.val a = _
  unfold Shape.Reduces.liftVal
  match a with
  | ⟨0, _⟩ => rfl
  | ⟨1, _⟩ => rfl
  | ⟨2, _⟩ => rfl

/-- The sine and the exponential act entry by entry. -/
theorem sin_apply {s : Shape} {φ : FTy} (a : FVec Ideal s φ) (i : s.Idx) : sin a i = Ideal.sin (a i) := rfl
theorem exp_apply {s : Shape} {φ : FTy} (a : FVec Ideal s φ) (i : s.Idx) : exp a i = Ideal.exp (a i) := rfl

/-! ## The body's arithmetic at an index -/

/-- Amplitude times sine of the phase angle, at (row r, channel d, local time j). -/
theorem wave_apply (v3 : Vec Ideal S32x1 .f32) (v10 : Vec Ideal S1x128 .f32) (v11 : Vec Ideal S32x1 .f32)
    (v16 v26 v31 : Vec Ideal S1x256 .f32) (r : Fin 32) (d : Fin 256) (j : Fin 128) :
    k0_pay3 (F := Ideal) v3 v10 v11 v16 v26 v31 (ix3 r d j)
      = v31 (ix2 0 d) * Ideal.sin ((v16 (ix2 0 d) * Ideal.exp (v3 (ix2 r 0) * Ideal.ofBits .f32 0x3EBF1F9B#32 + Ideal.ofBits .f32 0x40A0D96A#32))
          * (v10 (ix2 0 j) - v11 (ix2 r 0)) + v26 (ix2 0 d)) := by
  unfold k0_pay3
  simp only [shapeCast_self, mulf_apply, addf_apply, subf_apply, sin_apply, exp_apply, broadcast_apply,
    bcast_chan_rt, cast_chan_unit, bcast_rc_times, cast_rc_unit, bcast_chans_rows, bcast_rows_chans,
    bcast_rt_chans, cast_rt_unit, bcast_times_rows, bcast_rows_times]
  rfl

/-- One point's update at (row r, channel d): the running total's entry plus the tile's sum of summands. -/
theorem step_apply (acc : Vec Ideal S32x256 .f32) (x0 : Vec Ideal S32x128 .f32) (x1 x2 : Vec Ideal S32x1 .f32)
    (x3 : Vec Ideal S1x128 .f32) (x4 x5 x6 : Vec Ideal S1x256 .f32) (r : Fin 32) (d : Fin 256) :
    step (F := Ideal) acc x0 x1 x2 x3 x4 x5 x6 (ix2 r d)
      = acc (ix2 r d) + ∑ j : Fin 128, Cert.SineBasis.term (x0 (ix2 r j)) (x1 (ix2 r 0)) (x2 (ix2 r 0))
          (x4 (ix2 0 d)) (x5 (ix2 0 d)) (x6 (ix2 0 d)) (x3 (ix2 0 j)) := by
  unfold step k0_pay1 k0_pay4
  simp only [shapeCast_self]
  rw [addf_apply]
  refine (congrArg (acc (ix2 r d) + ·)
    (Ideal.multiReduction_add_single _ _ reduces_S32x256x128_S32x256 _ _ (ix2 r d))).trans ?_
  refine congrArg (acc (ix2 r d) + ·) (Finset.sum_congr rfl fun j _ => ?_)
  refine (congrArg (mulf _ _) (lift_time r d j)).trans ?_
  rw [mulf_apply, wave_apply, bcast_rt_chans, cast_rt_unit]
  rfl

/-- The cleared block's entries are the extended real zero. -/
theorem cleared_apply (i : S32x256.Idx) : cleared (F := Ideal) i = 0 := by
  unfold cleared k0_pay2
  simp only [shapeCast_self]
  exact Ideal.ofBits_zero_f32

end Cert.KernelIdeal.Accum

end
-- ==== Proof.Blocks.lean ====
/-
  The seven input blocks of a grid point, read entry by entry off the arrays the region finds.

  The grid has 32 row tiles and 5 time tiles, the time tile moving fastest: point t works on row tile t / 5 and time
  tile t % 5. Its sample block is rows 32 (t / 5) … + 31 and times 128 (t % 5) … + 127 of the [1024, 640] sample array;
  its log-frequency and delay blocks are those rows of the two [1024, 1] columns; its sample-time block is those times
  of the [1, 640] row; the three channel rows [1, 256] are read whole at every point.
-/
import proofs.«150227_j76433238000020_1_alg».proof.Proof.Gen.KernelIdeal.Frame
import proofs.«150227_j76433238000020_1_alg».proof.Proof.Spec
import Idealize.ShloMosaic.Lib.Pipeline.Value
import Idealize.ShloMosaic.Lib.ValueIdx

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen
open Cert.SineBasis (rowIdx tileIdx)

variable {F : FTy → Type} [FloatOps F]
variable (m : (ℓ : Loc nD τ sig) → Buf (Elt F) ℓ)

/-- Which block of each array a point works on: row tile t / 5 and time tile t % 5 where the array has that axis,
    block 0 elsewhere. -/
theorem block_index : ∀ t : Fin cfg0.N,
    (win0_0.index t 0 = t.val / 5 ∧ win0_0.index t 1 = t.val % 5)
    ∧ (win0_1.index t 0 = t.val / 5 ∧ win0_1.index t 1 = 0)
    ∧ (win0_2.index t 0 = t.val / 5 ∧ win0_2.index t 1 = 0)
    ∧ (win0_3.index t 0 = 0 ∧ win0_3.index t 1 = t.val % 5)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val / 5 ∧ win0_7.index t 1 = 0) :=
  (by decide +kernel : ∀ t : Fin grid0.N, _)

theorem point_lt (t : Fin cfg0.N) : t.val < 160 := lt_of_lt_of_eq t.isLt N_0

/-- The sample block. -/
theorem blk_x (c : Dev nD) (t : Fin cfg0.N) (r : Fin 32) (j : Fin 128) :
    (iblk m c 0 t : Vec F S32x128 .f32) (ix2 r j)
      = V m c main_v0 (ix2 (rowIdx (t.val / 5) r) (tileIdx (t.val % 5) j)) := by
  have ht := point_lt t
  have hi := (block_index t).1
  unfold iblk
  rw [View.read_apply]
  show V m c main_v0 (((cfg0.win 0).blk t).view.emb (ix2 r j)) = _
  refine congrArg (V m c main_v0) (funext fun a => Fin.ext ?_)
  match a with
  | ⟨0, _⟩ =>
    show win0_0.index t 0 * 32 + 1 * r.val = (32 * (t.val / 5) + r.val) % 1024
    rw [hi.1]; have := r.isLt; omega
  | ⟨1, _⟩ =>
    show win0_0.index t 1 * 128 + 1 * j.val = (128 * (t.val % 5) + j.val) % 640
    rw [hi.2]; have := j.isLt; omega

/-- The log-frequency block. -/
theorem blk_nlf (c : Dev nD) (t : Fin cfg0.N) (r : Fin 32) :
    (iblk m c 1 t : Vec F S32x1 .f32) (ix2 r 0) = V m c main_v1 (ix2 (rowIdx (t.val / 5) r) 0) := by
  have ht := point_lt t
  have hi := (block_index t).2.1
  unfold iblk
  rw [View.read_apply]
  show V m c main_v1 (((cfg0.win 1).blk t).view.emb (ix2 r 0)) = _
  refine congrArg (V m c main_v1) (funext fun a => Fin.ext ?_)
  match a with
  | ⟨0, _⟩ =>
    show win0_1.index t 0 * 32 + 1 * r.val = (32 * (t.val / 5) + r.val) % 1024
    rw [hi.1]; have := r.isLt; omega
  | ⟨1, _⟩ =>
    show win0_1.index t 1 * 1 + 1 * 0 = 0
    rw [hi.2]

/-- The delay block. -/
theorem blk_tau (c : Dev nD) (t : Fin cfg0.N) (r : Fin 32) :
    (iblk m c 2 t : Vec F S32x1 .f32) (ix2 r 0) = V m c main_v2 (ix2 (rowIdx (t.val / 5) r) 0) := by
  have ht := point_lt t
  have hi := (block_index t).2.2.1
  unfold iblk
  rw [View.read_apply]
  show V m c main_v2 (((cfg0.win 2).blk t).view.emb (ix2 r 0)) = _
  refine congrArg (V m c main_v2) (funext fun a => Fin.ext ?_)
  match a with
  | ⟨0, _⟩ =>
    show win0_2.index t 0 * 32 + 1 * r.val = (32 * (t.val / 5) + r.val) % 1024
    rw [hi.1]; have := r.isLt; omega
  | ⟨1, _⟩ =>
    show win0_2.index t 1 * 1 + 1 * 0 = 0
    rw [hi.2]

/-- The sample-time block. -/
theorem blk_k (c : Dev nD) (t : Fin cfg0.N) (j : Fin 128) :
    (iblk m c 3 t : Vec F S1x128 .f32) (ix2 0 j) = V m c main_arg6 (ix2 0 (tileIdx (t.val % 5) j)) := by
  have ht := point_lt t
  have hi := (block_index t).2.2.2.1
  unfold iblk
  rw [View.read_apply]
  show V m c main_arg6 (((cfg0.win 3).blk t).view.emb (ix2 0 j)) = _
  refine congrArg (V m c main_arg6) (funext fun a => Fin.ext ?_)
  match a with
  | ⟨0, _⟩ =>
    show win0_3.index t 0 * 1 + 1 * 0 = 0
    rw [hi.1]
  | ⟨1, _⟩ =>
    show win0_3.index t 1 * 128 + 1 * j.val = (128 * (t.val % 5) + j.val) % 640
    rw [hi.2]; have := j.isLt; omega

/-- The amplitude row, whole at every point. -/
theorem blk_a (c : Dev nD) (t : Fin cfg0.N) (d : Fin 256) :
    (iblk m c 4 t : Vec F S1x256 .f32) (ix2 0 d) = V m c main_v3 (ix2 0 d) := by
  have hi := (block_index t).2.2.2.2.1
  unfold iblk
  rw [View.read_apply]
  show V m c main_v3 (((cfg0.win 4).blk t).view.emb (ix2 0 d)) = _
  refine congrArg (V m c main_v3) (funext fun a => Fin.ext ?_)
  match a with
  | ⟨0, _⟩ =>
    show win0_4.index t 0 * 1 + 1 * 0 = 0
    rw [hi.1]
  | ⟨1, _⟩ =>
    show win0_4.index t 1 * 256 + 1 * d.val = d.val
    rw [hi.2]; omega

/-- The phase row, whole at every point. -/
theorem blk_phi (c : Dev nD) (t : Fin cfg0.N) (d : Fin 256) :
    (iblk m c 5 t : Vec F S1x256 .f32) (ix2 0 d) = V m c main_v4 (ix2 0 d) := by
  have hi := (block_index t).2.2.2.2.2.1
  unfold iblk
  rw [View.read_apply]
  show V m c main_v4 (((cfg0.win 5).blk t).view.emb (ix2 0 d)) = _
  refine congrArg (V m c main_v4) (funext fun a => Fin.ext ?_)
  match a with
  | ⟨0, _⟩ =>
    show win0_5.index t 0 * 1 + 1 * 0 = 0
    rw [hi.1]
  | ⟨1, _⟩ =>
    show win0_5.index t 1 * 256 + 1 * d.val = d.val
    rw [hi.2]; omega

/-- The harmonic-factor row, whole at every point. -/
theorem blk_w (c : Dev nD) (t : Fin cfg0.N) (d : Fin 256) :
    (iblk m c 6 t : Vec F S1x256 .f32) (ix2 0 d) = V m c main_v5 (ix2 0 d) := by
  have hi := (block_index t).2.2.2.2.2.2.1
  unfold iblk
  rw [View.read_apply]
  show V m c main_v5 (((cfg0.win 6).blk t).view.emb (ix2 0 d)) = _
  refine congrArg (V m c main_v5) (funext fun a => Fin.ext ?_)
  match a with
  | ⟨0, _⟩ =>
    show win0_6.index t 0 * 1 + 1 * 0 = 0
    rw [hi.1]
  | ⟨1, _⟩ =>
    show win0_6.index t 1 * 256 + 1 * d.val = d.val
    rw [hi.2]; omega

end Cert.KernelIdeal.Accum

end
-- ==== Proof.Accum.lean ====
/-
  The running total, point by point.

  Point n of the grid is time tile n % 5 of row tile n / 5. By induction on n the scratch after point n holds, at
  (r, d), the sum over the time tiles 0 … n % 5 of that tile's 128 summands for row 32 (n / 5) + r and channel d:
  a row tile's first point starts from the cleared block, every later point adds its tile to what the point before
  left. At a row tile's last point (n % 5 = 4) all five tiles are in, the output block is a copy of the total, and
  five tiles of 128 times are the 640 times: the output block holds the whole sum.
-/
import proofs.«150227_j76433238000020_1_alg».proof.Proof.Payload
import proofs.«150227_j76433238000020_1_alg».proof.Proof.Blocks

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen
open Cert.SineBasis (rowIdx tileIdx term sum_tiles)

variable {F : FTy → Type} [FloatOps F]
variable (m : (ℓ : Loc nD τ sig) → Buf (Elt F) ℓ)

/-! ## The point's seven blocks, named at their literal types -/

abbrev bx (c : Dev nD) (t : Fin cfg0.N) : Vec F S32x128 .f32 := iblk m c 0 t
abbrev bnlf (c : Dev nD) (t : Fin cfg0.N) : Vec F S32x1 .f32 := iblk m c 1 t
abbrev btau (c : Dev nD) (t : Fin cfg0.N) : Vec F S32x1 .f32 := iblk m c 2 t
abbrev bk (c : Dev nD) (t : Fin cfg0.N) : Vec F S1x128 .f32 := iblk m c 3 t
abbrev ba (c : Dev nD) (t : Fin cfg0.N) : Vec F S1x256 .f32 := iblk m c 4 t
abbrev bphi (c : Dev nD) (t : Fin cfg0.N) : Vec F S1x256 .f32 := iblk m c 5 t
abbrev bw (c : Dev nD) (t : Fin cfg0.N) : Vec F S1x256 .f32 := iblk m c 6 t

/-! ## What the scratch holds after a point, from what it held before -/

/-- A row tile's first point: the cleared block plus the point's tile. -/
theorem scr_first (c : Dev nD) (n : ℕ) (h : n < cfg0.N) (h0 : n % 5 = 0) :
    (outsAt0 m c n h).2 = step cleared (bx m c ⟨n, h⟩) (bnlf m c ⟨n, h⟩) (btau m c ⟨n, h⟩) (bk m c ⟨n, h⟩) (ba m c ⟨n, h⟩) (bphi m c ⟨n, h⟩) (bw m c ⟨n, h⟩) := by
  have h1 : ¬(⟨n, h⟩ : Fin cfg0.N).val % 5 = 4 := by show ¬n % 5 = 4; omega
  have e := outsAt0_A m c ⟨n, h⟩ h0 h1
  refine (congrArg Prod.snd e).trans ?_
  dsimp only
  exact scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)

/-- Every other point: what the point before left plus the point's tile. -/
theorem scr_next (c : Dev nD) (n : ℕ) (h : n + 1 < cfg0.N) (h0 : ¬(n + 1) % 5 = 0) :
    (outsAt0 m c (n + 1) h).2 = step (outsAt0 m c n (Nat.lt_of_succ_lt h)).2 (bx m c ⟨n + 1, h⟩) (bnlf m c ⟨n + 1, h⟩) (btau m c ⟨n + 1, h⟩) (bk m c ⟨n + 1, h⟩) (ba m c ⟨n + 1, h⟩) (bphi m c ⟨n + 1, h⟩) (bw m c ⟨n + 1, h⟩) := by
  by_cases h1 : (n + 1) % 5 = 4
  · have e := outsAt0_C m c ⟨n + 1, h⟩ h0 h1
    refine (congrArg Prod.snd e).trans ?_
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2
  · have e := outsAt0_B m c ⟨n + 1, h⟩ h0 h1
    refine (congrArg Prod.snd e).trans ?_
    dsimp only
    exact scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2

/-- A row tile's last point copies the new total into the output block. -/
theorem out_last (c : Dev nD) (n : ℕ) (h : n + 1 < cfg0.N) (h1 : (n + 1) % 5 = 4) :
    (outsAt0 m c (n + 1) h).1 = (outsAt0 m c (n + 1) h).2 := by
  have h0 : ¬(n + 1) % 5 = 0 := by omega
  have e := outsAt0_C m c ⟨n + 1, h⟩ h0 h1
  refine (congrArg Prod.fst e).trans (Eq.trans ?_ (congrArg Prod.snd e).symm)
  dsimp only
  exact (output_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2).trans
    (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2).symm

/-! ## At the ideal instance: the totals as sums of summands -/

variable (mi : (ℓ : Loc nD τ sig) → Buf (Elt Ideal) ℓ)

/-- The summand for row `row`, channel `d` and sample time `t`, over the arrays the region finds. -/
def summand (c : Dev nD) (row : Fin 1024) (d : Fin 256) (t : Fin 640) : EReal :=
  term (V mi c main_v0 (ix2 row t)) (V mi c main_v1 (ix2 row 0)) (V mi c main_v2 (ix2 row 0))
    (V mi c main_v3 (ix2 0 d)) (V mi c main_v4 (ix2 0 d)) (V mi c main_v5 (ix2 0 d)) (V mi c main_arg6 (ix2 0 t))

/-- A point's tile of summands, written over its blocks, is the tile of summands of its rows and times. -/
theorem tile_sum (c : Dev nD) (n : ℕ) (h : n < cfg0.N) (r : Fin 32) (d : Fin 256) :
    ∑ j : Fin 128, term (bx mi c ⟨n, h⟩ (ix2 r j)) (bnlf mi c ⟨n, h⟩ (ix2 r 0)) (btau mi c ⟨n, h⟩ (ix2 r 0))
        (ba mi c ⟨n, h⟩ (ix2 0 d)) (bphi mi c ⟨n, h⟩ (ix2 0 d)) (bw mi c ⟨n, h⟩ (ix2 0 d)) (bk mi c ⟨n, h⟩ (ix2 0 j))
      = ∑ j : Fin 128, summand mi c (rowIdx (n / 5) r) d (tileIdx (n % 5) j) := by
  refine Finset.sum_congr rfl fun j _ => ?_
  unfold summand
  exact congr (congr (congr (congr (congr (congr (congrArg term (blk_x mi c ⟨n, h⟩ r j)) (blk_nlf mi c ⟨n, h⟩ r))
    (blk_tau mi c ⟨n, h⟩ r)) (blk_a mi c ⟨n, h⟩ d)) (blk_phi mi c ⟨n, h⟩ d)) (blk_w mi c ⟨n, h⟩ d)) (blk_k mi c ⟨n, h⟩ j)

/-- THE INVARIANT: after point n the scratch holds, at (r, d), the tiles 0 … n % 5 of row tile n / 5. -/
theorem total_eq (c : Dev nD) : ∀ (n : ℕ) (h : n < cfg0.N) (r : Fin 32) (d : Fin 256),
    (outsAt0 mi c n h).2 (ix2 r d)
      = ∑ k ∈ Finset.range (n % 5 + 1), ∑ j : Fin 128, summand mi c (rowIdx (n / 5) r) d (tileIdx k j)
  | 0, h, r, d => by
    rw [scr_first mi c 0 h rfl, step_apply, cleared_apply, zero_add, tile_sum]
    show _ = ∑ k ∈ Finset.range 1, _
    rw [Finset.sum_range_one]
  | n + 1, h, r, d => by
    by_cases h0 : (n + 1) % 5 = 0
    · rw [scr_first mi c (n + 1) h h0, step_apply, cleared_apply, zero_add, tile_sum, h0]
      show _ = ∑ k ∈ Finset.range 1, _
      rw [Finset.sum_range_one]
    · have e1 : n / 5 = (n + 1) / 5 := by omega
      have e2 : n % 5 + 1 = (n + 1) % 5 := by omega
      rw [scr_next mi c n h h0, step_apply, tile_sum, total_eq c n (Nat.lt_of_succ_lt h) r d, e1, e2,
        Finset.sum_range_succ]

/-- At a row tile's last point the output block holds the whole sum over the 640 sample times. -/
theorem out_eq (c : Dev nD) (n : ℕ) (h : n < cfg0.N) (h1 : n % 5 = 4) (r : Fin 32) (d : Fin 256) :
    (outsAt0 mi c n h).1 (ix2 r d) = ∑ t : Fin 640, summand mi c (rowIdx (n / 5) r) d t := by
  obtain ⟨n, rfl⟩ : ∃ k, n = k + 1 := ⟨n - 1, by omega⟩
  rw [out_last mi c n h h1, total_eq mi c (n + 1) h r d, h1]
  exact sum_tiles (fun t => summand mi c (rowIdx ((n + 1) / 5) r) d t)

end Cert.KernelIdeal.Accum

end
-- ==== Proof.HostArrays.lean ====
/-
  The arrays the kernel region starts from, read at an index, as entries of the program's arguments.

  Before the region the program reshapes six of its arguments: the samples [16,64,1,640] to [1024,640], the two
  per-row scalars [16,64,1,1] to [1024,1], and the three per-channel columns [256,1] to rows [1,256]. A reshape keeps
  each element's row-major position. Row r of the 1024 is the pair (s, b) with r = 64 s + b, so s = r / 64 and
  b = r % 64: position ((s · 64 + b) · 1 + 0) · n + t of [16,64,1,n] is position r · n + t of [1024,n]. Channel d is
  position d · 1 + 0 of [256,1] and position 0 · 256 + d of [1,256].
-/
import proofs.«150227_j76433238000020_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Accum

open Idealize.ShloMosaic Idealize.ShloMosaic.TcCoe Idealize.SL.Sem Idealize.ShloMosaic.ValueIdx Cert.KernelIdeal Cert.KernelIdeal.Gen

variable {F : FTy → Type} [FloatOps F] (m : (ℓ : Loc nD τ sig) → Buf (Elt F) ℓ)

/-- The s of row r = 64 s + b. -/
def rowS (row : Fin 1024) : Fin 16 := ⟨row.val / 64, by have := row.isLt; omega⟩
/-- The b of row r = 64 s + b. -/
def rowB (row : Fin 1024) : Fin 64 := ⟨row.val % 64, Nat.mod_lt _ (by decide)⟩

/-- Entry (s, b, 0, t) of [16,64,1,n] and entry (64 s + b, t) of [1024,n] have the same row-major position. -/
theorem pos_row (n : Nat) (row : Fin 1024) (t : Fin n) :
    ((⟨4, ![16, 64, 1, n]⟩ : Shape).rowMajor (ix4 (rowS row) (rowB row) 0 t)).val
      = ((⟨2, ![1024, n]⟩ : Shape).rowMajor (ix2 row t)).val := by
  rw [Shape.rowMajor_val_four, Shape.rowMajor_val_two]
  show ((row.val / 64 * 64 + row.val % 64) * 1 + 0) * n + t.val = row.val * n + t.val
  have h : row.val / 64 * 64 + row.val % 64 = row.val := by omega
  rw [Nat.mul_one, Nat.add_zero, h]

/-- Entry (d, 0) of [256,1] and entry (0, d) of [1,256] have the same row-major position. -/
theorem pos_col (d : Fin 256) :
    ((⟨2, ![256, 1]⟩ : Shape).rowMajor (ix2 d 0)).val = ((⟨2, ![1, 256]⟩ : Shape).rowMajor (ix2 0 d)).val := by
  rw [Shape.rowMajor_val_two, Shape.rowMajor_val_two]
  show d.val * 1 + 0 = 0 * 256 + d.val
  omega

/-- The reshaped samples: row 64 s + b at time t is the argument's entry (s, b, 0, t). -/
theorem V_x (c : Dev nD) (row : Fin 1024) (t : Fin 640) :
    V m c main_v0 (ix2 row t) = m ((c : Thread nD τ).loc main_arg0) (ix4 (rowS row) (rowB row) 0 t) := by
  have e : (V m c main_v0 : S1024x640.Idx → Elt F .f32)
      = shapeCast S1024x640 (m ((c : Thread nD τ).loc main_arg0)) shapeCasts_S16x64x1x640_S1024x640 := by
    show StableHlo.after hostOps0 (fun b => m (c, b)) (Proc.devRef .tc main_v0) = _
    after_results
    rfl
  exact (congrFun e (ix2 row t)).trans (shapeCast_apply _ _ _ _ (pos_row 640 row t))

/-- The reshaped log-frequencies: row 64 s + b is the argument's entry (s, b, 0, 0). -/
theorem V_nlf (c : Dev nD) (row : Fin 1024) :
    V m c main_v1 (ix2 row 0) = m ((c : Thread nD τ).loc main_arg1) (ix4 (rowS row) (rowB row) 0 0) := by
  have e : (V m c main_v1 : S1024x1.Idx → Elt F .f32)
      = shapeCast S1024x1 (m ((c : Thread nD τ).loc main_arg1)) shapeCasts_S16x64x1x1_S1024x1 := by
    show StableHlo.after hostOps0 (fun b => m (c, b)) (Proc.devRef .tc main_v1) = _
    after_results
    rfl
  exact (congrFun e (ix2 row 0)).trans (shapeCast_apply _ _ _ _ (pos_row 1 row 0))

/-- The reshaped time shifts: row 64 s + b is the argument's entry (s, b, 0, 0). -/
theorem V_tau (c : Dev nD) (row : Fin 1024) :
    V m c main_v2 (ix2 row 0) = m ((c : Thread nD τ).loc main_arg2) (ix4 (rowS row) (rowB row) 0 0) := by
  have e : (V m c main_v2 : S1024x1.Idx → Elt F .f32)
      = shapeCast S1024x1 (m ((c : Thread nD τ).loc main_arg2)) shapeCasts_S16x64x1x1_S1024x1 := by
    show StableHlo.after hostOps0 (fun b => m (c, b)) (Proc.devRef .tc main_v2) = _
    after_results
    rfl
  exact (congrFun e (ix2 row 0)).trans (shapeCast_apply _ _ _ _ (pos_row 1 row 0))

/-- The amplitudes as a row: entry (0, d) is the argument's entry (d, 0). -/
theorem V_a (c : Dev nD) (d : Fin 256) :
    V m c main_v3 (ix2 0 d) = m ((c : Thread nD τ).loc main_arg3) (ix2 d 0) := by
  have e : (V m c main_v3 : S1x256.Idx → Elt F .f32)
      = shapeCast S1x256 (m ((c : Thread nD τ).loc main_arg3)) shapeCasts_S256x1_S1x256 := by
    show StableHlo.after hostOps0 (fun b => m (c, b)) (Proc.devRef .tc main_v3) = _
    after_results
    rfl
  exact (congrFun e (ix2 0 d)).trans (shapeCast_apply _ _ _ _ (pos_col d))

/-- The phases as a row: entry (0, d) is the argument's entry (d, 0). -/
theorem V_phi (c : Dev nD) (d : Fin 256) :
    V m c main_v4 (ix2 0 d) = m ((c : Thread nD τ).loc main_arg4) (ix2 d 0) := by
  have e : (V m c main_v4 : S1x256.Idx → Elt F .f32)
      = shapeCast S1x256 (m ((c : Thread nD τ).loc main_arg4)) shapeCasts_S256x1_S1x256 := by
    show StableHlo.after hostOps0 (fun b => m (c, b)) (Proc.devRef .tc main_v4) = _
    after_results
    rfl
  exact (congrFun e (ix2 0 d)).trans (shapeCast_apply _ _ _ _ (pos_col d))

/-- The angular frequencies as a row: entry (0, d) is the argument's entry (d, 0). -/
theorem V_w (c : Dev nD) (d : Fin 256) :
    V m c main_v5 (ix2 0 d) = m ((c : Thread nD τ).loc main_arg5) (ix2 d 0) := by
  have e : (V m c main_v5 : S1x256.Idx → Elt F .f32)
      = shapeCast S1x256 (m ((c : Thread nD τ).loc main_arg5)) shapeCasts_S256x1_S1x256 := by
    show StableHlo.after hostOps0 (fun b => m (c, b)) (Proc.devRef .tc main_v5) = _
    after_results
    rfl
  exact (congrFun e (ix2 0 d)).trans (shapeCast_apply _ _ _ _ (pos_col d))

end Cert.KernelIdeal.Accum

end
-- ==== Proof.Final.lean ====
/-
  From the blocks to the result array, and the kernel's run.

  Only a row tile's last point writes its output block back, and then the block holds, at (r, d), the whole sum over
  the 640 sample times for row 32 i + r. The 32 row tiles' blocks tile the [1024, 256] result array, so after the
  region the array holds at (row, d) the sum of the summands of that row and channel. The program then reshapes the
  array to [16, 64, 256] (row = 64 s + b), and the arrays the summands read are themselves reshapes of the arguments
  with the same row = 64 s + b: the result is the specification's `G` of the seven arguments.
-/
import proofs.«150227_j76433238000020_1_alg».proof.Proof.Accum
import proofs.«150227_j76433238000020_1_alg».proof.Proof.HostArrays
import Idealize.ShloMosaic.Lib.StableHlo.Run
import Idealize.ShloMosaic.Lib.Tactic

set_option maxRecDepth 16384

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen
open Cert.SineBasis (rowIdx tileIdx term G)

variable (mi : (ℓ : Loc nD τ sig) → Buf (Elt Ideal) ℓ) (ρ : Dev nD → PrngReg)

/-- What the [1024, 256] array holds after the region: at (row, d) the sum over the 640 sample times. -/
def total (c : Dev nD) : S1024x256.Idx → EReal := fun i => ∑ t : Fin 640, summand mi c (i 0) (i 1) t

/-- What a row tile's last point writes back is its block of `total`. -/
theorem flushed_eq (c : Dev nD) (t : Fin cfg0.N) (hf : (cfg0.win 7).flush t = true) :
    (dats mi 0 c).flushed 7 t = ((cfg0.win 7).blk t).view.read (Elt Ideal) (total mi c) := by
  have h4 : t.val % 5 = 4 := (flush0_7 t).mp hf
  have ht := point_lt t
  have hi := (block_index t).2.2.2.2.2.2.2
  show (cfg0.win 7).cut (grid0.coords t) ((dats mi 0 c).after 7 t) = _
  rw [after0_7]
  funext y
  obtain ⟨r, d, rfl⟩ : ∃ (r : Fin 32) (d : Fin 256), y = ix2 r d := ⟨y 0, y 1, eq_ix2 y⟩
  rw [View.read_apply]
  show (outsAt0 mi c t.val t.isLt).1 (ix2 r d) = total mi c (((cfg0.win 7).blk t).view.emb (ix2 r d))
  rw [out_eq mi c t.val t.isLt h4 r d]
  unfold total
  have e0 : (((cfg0.win 7).blk t).view.emb (ix2 r d)) 0 = rowIdx (t.val / 5) r := Fin.ext (by
    show win0_7.index t 0 * 32 + 1 * r.val = (32 * (t.val / 5) + r.val) % 1024
    rw [hi.1]; have := r.isLt; omega)
  have e1 : (((cfg0.win 7).blk t).view.emb (ix2 r d)) 1 = d := Fin.ext (by
    show win0_7.index t 1 * 256 + 1 * d.val = d.val
    rw [hi.2]; omega)
  rw [e0, e1]

/-- An index of the array is in a point's output block iff each coordinate is in the block's range. -/
theorem mem_blk (t : Fin cfg0.N) (i : S1024x256.Idx) :
    i ∈ ((cfg0.win 7).blk t).view.set ↔ ∀ a : Fin 2, win0_7.index t a * S32x256.size a ≤ (i a).val
      ∧ (i a).val < win0_7.index t a * S32x256.size a + S32x256.size a := by
  show i ∈ ((View.whole main_v6).slice (win0_7.rect t)).set ↔ _
  rw [View.set_slice_whole, Rect.mem_set_unit]
  exact Iff.rfl

/-- Row `row` lies in row tile `row / 32`, whose last point writes it back. -/
theorem covered (i : S1024x256.Idx) :
    ∃ t : Fin cfg0.N, (cfg0.win 7).flush t = true ∧ i ∈ ((cfg0.win 7).blk t).view.set := by
  have hi0 : (i 0).val < 1024 := (i 0).isLt
  have hi1 : (i 1).val < 256 := (i 1).isLt
  have hN : cfg0.N = 160 := N_0
  have hlt : 5 * ((i 0).val / 32) + 4 < cfg0.N := by rw [hN]; omega
  have hb := (block_index ⟨5 * ((i 0).val / 32) + 4, hlt⟩).2.2.2.2.2.2.2
  refine ⟨⟨5 * ((i 0).val / 32) + 4, hlt⟩, (flush0_7 _).mpr (by show (5 * ((i 0).val / 32) + 4) % 5 = 4; omega), ?_⟩
  rw [mem_blk]
  intro a
  match a with
  | ⟨0, _⟩ =>
    show win0_7.index ⟨5 * ((i 0).val / 32) + 4, hlt⟩ 0 * 32 ≤ (i 0).val
      ∧ (i 0).val < win0_7.index ⟨5 * ((i 0).val / 32) + 4, hlt⟩ 0 * 32 + 32
    rw [hb.1]
    show (5 * ((i 0).val / 32) + 4) / 5 * 32 ≤ (i 0).val ∧ (i 0).val < (5 * ((i 0).val / 32) + 4) / 5 * 32 + 32
    omega
  | ⟨1, _⟩ =>
    show win0_7.index ⟨5 * ((i 0).val / 32) + 4, hlt⟩ 1 * 256 ≤ (i 1).val
      ∧ (i 1).val < win0_7.index ⟨5 * ((i 0).val / 32) + 4, hlt⟩ 1 * 256 + 256
    rw [hb.2]
    omega

/-- The [1024, 256] array after the region. -/
theorem final_eq (c : Dev nD) : (dats mi 0 c).arrAt 7 cfg0.N = total mi c :=
  (dats mi 0 c).arrAt_eq_of_cover 7 (total mi c) (flushed_eq mi c) covered

/-- The reshape after the region, applied to the array the region leaves. -/
theorem tail_eq (c : Dev nD) :
    Pipeline.afterTail₀ cfgs (dats mi) 0 (V0 mi) [hostOps1] c main_v7
      = shapeCast S16x64x256 (total mi c) shapeCasts_S1024x256_S16x64x256 := by
  unfold Pipeline.afterTail₀
  show StableHlo.after hostOps1 _ (Proc.devRef .tc main_v7) = _
  after_results
  have e : Pipeline.withArrays (cfgs 0).spec c (V0 mi c) (fun w => (dats mi 0 c).arrAt w (cfgs 0).N)
      (Proc.devRef .tc main_v6) = total mi c :=
    (Pipeline.withArrays_arr spec0 launch0.win.arr_inj c _ _ 7).trans (final_eq mi c)
  rw [e]
  rfl

/-- Entry (s, b, d) of the reshaped result is entry (64 s + b, d) of the [1024, 256] array, and that row's summands
    read the arguments at (s, b): the result is the specification's `G` of the arguments. -/
theorem result_eq (c : Dev nD) :
    shapeCast S16x64x256 (total mi c) shapeCasts_S1024x256_S16x64x256 = G (mi ((c.tc : Thread nD τ).loc main_arg0)) (mi ((c.tc : Thread nD τ).loc main_arg1)) (mi ((c.tc : Thread nD τ).loc main_arg2)) (mi ((c.tc : Thread nD τ).loc main_arg3)) (mi ((c.tc : Thread nD τ).loc main_arg4)) (mi ((c.tc : Thread nD τ).loc main_arg5)) (mi ((c.tc : Thread nD τ).loc main_arg6)) := by
  funext i
  obtain ⟨s, b, d, rfl⟩ : ∃ (s : Fin 16) (b : Fin 64) (d : Fin 256), i = ix3 s b d := ⟨i 0, i 1, i 2, eq_ix3 i⟩
  have hs := s.isLt
  have hb := b.isLt
  have hrow : 64 * s.val + b.val < 1024 := by omega
  rw [shapeCast_apply (total mi c) _ (ix3 s b d) (ix2 (⟨64 * s.val + b.val, hrow⟩ : Fin 1024) d) (by
    rw [Shape.rowMajor_val_two, Shape.rowMajor_val_three]
    show (64 * s.val + b.val) * 256 + d.val = (s.val * 64 + b.val) * 256 + d.val
    omega)]
  have eS : rowS (⟨64 * s.val + b.val, hrow⟩ : Fin 1024) = s := Fin.ext (by show (64 * s.val + b.val) / 64 = s.val; omega)
  have eB : rowB (⟨64 * s.val + b.val, hrow⟩ : Fin 1024) = b := Fin.ext (by show (64 * s.val + b.val) % 64 = b.val; omega)
  unfold total G
  refine Finset.sum_congr rfl fun t _ => ?_
  show summand mi c (⟨64 * s.val + b.val, hrow⟩ : Fin 1024) d t = _
  unfold summand
  rw [V_x, V_nlf, V_tau, V_a, V_phi, V_w, V_main_arg6, eS, eB]

/-- THE KERNEL'S RUN at the ideal instance: every weakly fair execution terminates with the result array at the
    specification's `G` of the arguments and the arguments unchanged. -/
theorem run : θ_run defs (onTc (τ := τ) (main (F := Ideal))) ⟨mi, fun _ => 0, ρ⟩ fun r => ∀ c : Dev nD,
      r.2.mem ((c.tc : Thread nD τ).loc main_v7) = G (mi ((c.tc : Thread nD τ).loc main_arg0)) (mi ((c.tc : Thread nD τ).loc main_arg1)) (mi ((c.tc : Thread nD τ).loc main_arg2)) (mi ((c.tc : Thread nD τ).loc main_arg3)) (mi ((c.tc : Thread nD τ).loc main_arg4)) (mi ((c.tc : Thread nD τ).loc main_arg5)) (mi ((c.tc : Thread nD τ).loc main_arg6))
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4)
      ∧ r.2.mem ((c.tc : Thread nD τ).loc main_arg5) = mi ((c.tc : Thread nD τ).loc main_arg5)
      ∧ r.2.mem ((c.tc : Thread nD τ).loc main_arg6) = mi ((c.tc : Thread nD τ).loc main_arg6) :=
  (θ_run defs _ _).mono (fun _ h c =>
    ⟨((h c).2 main_v7 (Pipeline.mem_restRefs_of main_v7 (by decide) (by decide))).trans
        ((tail_eq mi c).trans (result_eq mi c)),
      ((h c).2 main_arg0 (Pipeline.mem_restRefs_of main_arg0 (by decide) (by decide))).trans (W_main_arg0 mi (dats mi) c),
      ((h c).2 main_arg1 (Pipeline.mem_restRefs_of main_arg1 (by decide) (by decide))).trans (W_main_arg1 mi (dats mi) c),
      ((h c).2 main_arg2 (Pipeline.mem_restRefs_of main_arg2 (by decide) (by decide))).trans (W_main_arg2 mi (dats mi) c),
      ((h c).2 main_arg3 (Pipeline.mem_restRefs_of main_arg3 (by decide) (by decide))).trans (W_main_arg3 mi (dats mi) c),
      ((h c).2 main_arg4 (Pipeline.mem_restRefs_of main_arg4 (by decide) (by decide))).trans (W_main_arg4 mi (dats mi) c),
      ((h c).2 main_arg5 (Pipeline.mem_restRefs_of main_arg5 (by decide) (by decide))).trans (W_main_arg5 mi (dats mi) c),
      ((h c).1 3).trans (((dats mi 0 c).arrAt_in 3 rfl _).trans ((A_eq mi c 3).trans (V_main_arg6 mi c)))⟩)
    (run_main mi ρ)

end Cert.KernelIdeal.Accum

end
-- ==== Proof.lean ====
/-
  A fused sinusoidal-basis kernel against its jnp reference, over the extended reals.

  For row (s, b), channel d and sample time t both programs form the summand
      a[d] · sin( (w[d] · exp(nlf[s,b] · σ + μ)) · (k[t] − τ[s,b]) + φ[d] ) · x[s,b,t]
  with the same two float literals σ, μ and the same operand order, and sum it over the 640 sample times. The
  reference does so in one pass over a [16, 64, 256, 640] array. The kernel flattens (s, b) to 1024 rows, walks 32
  row tiles by 5 time tiles, keeps a running total per (row, channel) in a scratch block that it clears at a row
  tile's first time tile, and copies the total to the result at the last; the result is reshaped back to
  [16, 64, 256].

  The two results are equal entry by entry: the running total after a row tile's last point is the sum over the five
  tiles of each tile's 128 summands (an induction over the grid's points), five tiles of 128 times are the 640 times,
  and the flattened row 64 s + b reads the arguments at (s, b). Only the laws of a commutative monoid under addition
  are used, so the finiteness of the inputs is never opened. The ideal pass rewrote nothing, so the preservation
  claim is trivial. The three frames are the generated runs: the two kernels' frame theorems, and the reference's run
  with its result dropped.
-/
import proofs.«150227_j76433238000020_1_alg».proof.Defs
import proofs.«150227_j76433238000020_1_alg».proof.Proof.Gen.Kernel
import proofs.«150227_j76433238000020_1_alg».proof.Proof.Gen.Kernel.Frame
import proofs.«150227_j76433238000020_1_alg».proof.Proof.Gen.KernelIdeal
import proofs.«150227_j76433238000020_1_alg».proof.Proof.Gen.KernelIdeal.Frame
import proofs.«150227_j76433238000020_1_alg».proof.Proof.Gen.ReferenceIdeal
import proofs.«150227_j76433238000020_1_alg».proof.Proof.Gen.ReferenceIdeal.Run
import proofs.«150227_j76433238000020_1_alg».proof.Proof.Gen.ReferenceIdeal.Read
import proofs.«150227_j76433238000020_1_alg».proof.Proof.Gen.Pre_finite_inputs
import proofs.«150227_j76433238000020_1_alg».proof.Proof.RefValue
import proofs.«150227_j76433238000020_1_alg».proof.Proof.Final
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the specification's sum of the arguments, which agree. -/
theorem algebraic : Cert.algebraic_KernelIdeal_ReferenceIdeal := by
  intro m ρ m' ρ' _ hagree
  refine ⟨_, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _ _ _ _ _ _).trans ?_
  rw [Cert.ReferenceIdeal.RefValue.ref_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
